-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x60x52x52 : Shape := ⟨4, ![128, 60, 52, 52]⟩
abbrev S_ : Shape := ⟨0, ![]⟩

class Facts : Prop where
  bcast_S_S128x60x52x52 : S_.BroadcastsInDim S128x60x52x52 (![] : Fin 0 → Fin S128x60x52x52.rank)
  reducesTo_S128x60x52x52_S_d0_1_2_3 : S128x60x52x52.ReducesTo [0, 1, 2, 3] S_
  h_S_ : 0 < S_.numel

variable [Facts]

def fn {F : FTy → Type} [FloatOps F] (main_arg0 : FVec F S128x60x52x52 .f32) : IVec S_ 1 :=
  let main_v0 : FVec F S128x60x52x52 .f32 := Host.absf main_arg0
  let main_cst : FVec F S_ .f32 := constant S_ .f32 0x7F800000#32
  let main_v1 : FVec F S128x60x52x52 .f32 := broadcastInDim S128x60x52x52 ![] bcast_S_S128x60x52x52 main_cst
  let main_v2 : IVec S128x60x52x52 1 := cmpf .olt main_v0 main_v1
  let main_c : IVec S_ 1 := constantI S_ 1 1#1
  let main_v3 : IVec S_ 1 := (fun x v => Host.reduce IntOp.andi x v reducesTo_S128x60x52x52_S_d0_1_2_3 h_S_) main_v2 main_c
  main_v3
-- ==== Kernel.lean ====
abbrev S128x60x52x52 : Shape := ⟨4, ![128, 60, 52, 52]⟩
abbrev S52x52x60x128 : Shape := ⟨4, ![52, 52, 60, 128]⟩
abbrev S20x3x2704x128 : Shape := ⟨4, ![20, 3, 2704, 128]⟩
abbrev S4x52x60x128 : Shape := ⟨4, ![4, 52, 60, 128]⟩
abbrev S20x1x208x128 : Shape := ⟨4, ![20, 1, 208, 128]⟩
abbrev S208x60x128 : Shape := ⟨3, ![208, 60, 128]⟩
abbrev S208x20x128 : Shape := ⟨3, ![208, 20, 128]⟩
abbrev S20x208x128 : Shape := ⟨3, ![20, 208, 128]⟩
abbrev S2x208x128 : Shape := ⟨3, ![2, 208, 128]⟩
abbrev S1x208x128 : Shape := ⟨3, ![1, 208, 128]⟩
abbrev S15x208x128 : Shape := ⟨3, ![15, 208, 128]⟩
abbrev S208x128 : Shape := ⟨2, ![208, 128]⟩
abbrev S20x8112x128 : Shape := ⟨3, ![20, 8112, 128]⟩
abbrev S128x8112x20 : Shape := ⟨3, ![128, 8112, 20]⟩

abbrev nBuf : Space → Nat
  | .hbm => 5
  | .vmem => 4
  | .smem => 0
  | _ => 0

abbrev bufTy : (tb : Table) → Fin (tcTables nBuf tb) → BufTy
  | .hbm, ⟨0, _⟩ => ⟨S128x60x52x52, .f32⟩
  | .hbm, ⟨1, _⟩ => ⟨S52x52x60x128, .f32⟩
  | .hbm, ⟨2, _⟩ => ⟨S20x3x2704x128, .f32⟩
  | .hbm, ⟨3, _⟩ => ⟨S20x8112x128, .f32⟩
  | .hbm, ⟨4, _⟩ => ⟨S128x8112x20, .f32⟩
  | .local _ .vmem, ⟨0, _⟩ => ⟨S4x52x60x128, .f32⟩
  | .local _ .vmem, ⟨1, _⟩ => ⟨S4x52x60x128, .f32⟩
  | .local _ .vmem, ⟨2, _⟩ => ⟨S20x1x208x128, .f32⟩
  | .local _ .vmem, ⟨3, _⟩ => ⟨S20x1x208x128, .f32⟩
  | _, _ => ⟨S128x60x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![13, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_5 : BitVec 32 := 0#32
  let v11 : BitVec 1 := Scalar.cmpi .ne v10 c0_i32_5
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S4x52x60x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S20x1x208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S128x60x52x52_S52x52x60x128_2_3_1_0 : S128x60x52x52.Transposes [2, 3, 1, 0] S52x52x60x128
  inb_S4x52x60x128_S4x52x60x128_0_0_0_0 : ∀ a, (![0, 0, 0, 0] : Fin 4 → Nat) a + S4x52x60x128.size a ≤ S4x52x60x128.size a
  h_S4x52x60x128 : 0 < S4x52x60x128.numel
  shapeCasts_S4x52x60x128_S4x52x60x128 : S4x52x60x128.ShapeCasts S4x52x60x128
  shapeCasts_S4x52x60x128_S208x60x128 : S4x52x60x128.ShapeCasts S208x60x128
  slices_S208x60x128_o0_0_0_S208x20x128 : S208x60x128.Slices ![0, 0, 0] S208x20x128
  transposes_S208x20x128_p1_0_2_S20x208x128 : S208x20x128.Transposes [1, 0, 2] S20x208x128
  slices_S20x208x128_o0_0_0_S2x208x128 : S20x208x128.Slices ![0, 0, 0] S2x208x128
  slices_S20x208x128_o2_0_0_S2x208x128 : S20x208x128.Slices ![2, 0, 0] S2x208x128
  slices_S20x208x128_o4_0_0_S1x208x128 : S20x208x128.Slices ![4, 0, 0] S1x208x128
  slices_S20x208x128_o5_0_0_S15x208x128 : S20x208x128.Slices ![5, 0, 0] S15x208x128
  reduces_S15x208x128_S208x128 : S15x208x128.Reduces [0] S208x128
  shapeCasts_S208x128_S1x208x128 : S208x128.ShapeCasts S1x208x128
  broadcasts_S1x208x128_S15x208x128 : S1x208x128.Broadcasts S15x208x128
  concatenates_S2x208x128_S2x208x128_S1x208x128_S15x208x128_S20x208x128_d0 : Shape.Concatenates [S2x208x128, S2x208x128, S1x208x128, S15x208x128] S20x208x128 0
  inb_S20x1x208x128_S20x1x208x128_0_0_0_0 : ∀ a, (![0, 0, 0, 0] : Fin 4 → Nat) a + S20x1x208x128.size a ≤ S20x1x208x128.size a
  h_S20x1x208x128 : 0 < S20x1x208x128.numel
  shapeCasts_S20x1x208x128_S20x208x128 : S20x1x208x128.ShapeCasts S20x208x128
  shapeCasts_S20x208x128_S20x1x208x128 : S20x208x128.ShapeCasts S20x1x208x128
  slices_S208x60x128_o0_20_0_S208x20x128 : S208x60x128.Slices ![0, 20, 0] S208x20x128
  slices_S208x60x128_o0_40_0_S208x20x128 : S208x60x128.Slices ![0, 40, 0] S208x20x128
  shapeCasts_S20x3x2704x128_S20x8112x128 : S20x3x2704x128.ShapeCasts S20x8112x128
  transposes_S20x8112x128_S128x8112x20_2_1_0 : S20x8112x128.Transposes [2, 1, 0] S128x8112x20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x52x60x128.size a ≤ S52x52x60x128.size a
  hwx0_0 : ∀ i : grid0.Coords, EltTy.bits .f32 = 32 ∨ (Rect.block (s := S52x52x60x128) S4x52x60x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x1x208x128.size a ≤ S20x3x2704x128.size a
  hwx0_1 : ∀ i : grid0.Coords, EltTy.bits .f32 = 32 ∨ (Rect.block (s := S20x3x2704x128) S20x1x208x128.size (cc0_transform_1 i) (hinb0_1 i)).WholeWords (EltTy.packing .f32)

variable [Facts₀]

abbrev win0_0 : Pipeline.Window sig grid0 :=
  Pipeline.Window.ofSpec (Memref.whole main_v0) S4x52x60x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S20x1x208x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) | ⟨_ + 2, h⟩ => absurd h (Nat.not_lt.2 (Nat.le_add_left _ _))

class Facts : Prop extends Facts₀ where

variable [Facts]
-- ==== ReferenceIdeal.lean ====
abbrev S128x60x52x52 : Shape := ⟨4, ![128, 60, 52, 52]⟩
abbrev S128x3x20x52x52 : Shape := ⟨5, ![128, 3, 20, 52, 52]⟩
abbrev S128x3x52x52x20 : Shape := ⟨5, ![128, 3, 52, 52, 20]⟩
abbrev S128x3x52x52x1 : Shape := ⟨5, ![128, 3, 52, 52, 1]⟩
abbrev S128x3x52x52 : Shape := ⟨4, ![128, 3, 52, 52]⟩
abbrev S_ : Shape := ⟨0, ![]⟩
abbrev S128x3x52x52x15 : Shape := ⟨5, ![128, 3, 52, 52, 15]⟩
abbrev S128x3x52x52x4 : Shape := ⟨5, ![128, 3, 52, 52, 4]⟩
abbrev S128x8112x4 : Shape := ⟨3, ![128, 8112, 4]⟩
abbrev S128x8112x1 : Shape := ⟨3, ![128, 8112, 1]⟩
abbrev S128x8112x15 : Shape := ⟨3, ![128, 8112, 15]⟩
abbrev S128x8112x20 : Shape := ⟨3, ![128, 8112, 20]⟩

abbrev nBuf : Space → Nat
  | .hbm => 64
  | .vmem => 0
  | .smem => 0
  | _ => 0

abbrev bufTy : (tb : Table) → Fin (tcTables nBuf tb) → BufTy
  | .hbm, ⟨0, _⟩ => ⟨S128x60x52x52, .f32⟩
  | .hbm, ⟨1, _⟩ => ⟨S128x3x20x52x52, .f32⟩
  | .hbm, ⟨2, _⟩ => ⟨S128x3x52x52x20, .f32⟩
  | .hbm, ⟨3, _⟩ => ⟨S128x3x52x52x1, .f32⟩
  | .hbm, ⟨4, _⟩ => ⟨S128x3x52x52, .f32⟩
  | .hbm, ⟨5, _⟩ => ⟨S128x3x52x52, .f32⟩
  | .hbm, ⟨6, _⟩ => ⟨S128x3x52x52, .f32⟩
  | .hbm, ⟨7, _⟩ => ⟨S_, .f32⟩
  | .hbm, ⟨8, _⟩ => ⟨S128x3x52x52, .f32⟩
  | .hbm, ⟨9, _⟩ => ⟨S128x3x52x52, .f32⟩
  | .hbm, ⟨10, _⟩ => ⟨S_, .f32⟩
  | .hbm, ⟨11, _⟩ => ⟨S128x3x52x52, .f32⟩
  | .hbm, ⟨12, _⟩ => ⟨S128x3x52x52, .f32⟩
  | .hbm, ⟨13, _⟩ => ⟨S128x3x52x52x1, .f32⟩
  | .hbm, ⟨14, _⟩ => ⟨S128x3x52x52, .f32⟩
  | .hbm, ⟨15, _⟩ => ⟨S128x3x52x52, .f32⟩
  | .hbm, ⟨16, _⟩ => ⟨S128x3x52x52, .f32⟩
  | .hbm, ⟨17, _⟩ => ⟨S_, .f32⟩
  | .hbm, ⟨18, _⟩ => ⟨S128x3x52x52, .f32⟩
  | .hbm, ⟨19, _⟩ => ⟨S128x3x52x52, .f32⟩
  | .hbm, ⟨20, _⟩ => ⟨S_, .f32⟩
  | .hbm, ⟨21, _⟩ => ⟨S128x3x52x52, .f32⟩
  | .hbm, ⟨22, _⟩ => ⟨S128x3x52x52, .f32⟩
  | .hbm, ⟨23, _⟩ => ⟨S128x3x52x52x1, .f32⟩
  | .hbm, ⟨24, _⟩ => ⟨S128x3x52x52, .f32⟩
  | .hbm, ⟨25, _⟩ => ⟨S128x3x52x52x1, .f32⟩
  | .hbm, ⟨26, _⟩ => ⟨S128x3x52x52, .f32⟩
  | .hbm, ⟨27, _⟩ => ⟨S128x3x52x52x1, .f32⟩
  | .hbm, ⟨28, _⟩ => ⟨S128x3x52x52, .f32⟩
  | .hbm, ⟨29, _⟩ => ⟨S128x3x52x52, .f32⟩
  | .hbm, ⟨30, _⟩ => ⟨S128x3x52x52, .f32⟩
  | .hbm, ⟨31, _⟩ => ⟨S_, .f32⟩
  | .hbm, ⟨32, _⟩ => ⟨S128x3x52x52, .f32⟩
  | .hbm, ⟨33, _⟩ => ⟨S128x3x52x52, .f32⟩
  | .hbm, ⟨34, _⟩ => ⟨S_, .f32⟩
  | .hbm, ⟨35, _⟩ => ⟨S128x3x52x52, .f32⟩
  | .hbm, ⟨36, _⟩ => ⟨S128x3x52x52, .f32⟩
  | .hbm, ⟨37, _⟩ => ⟨S128x3x52x52x15, .f32⟩
  | .hbm, ⟨38, _⟩ => ⟨S_, .f32⟩
  | .hbm, ⟨39, _⟩ => ⟨S128x3x52x52, .f32⟩
  | .hbm, ⟨40, _⟩ => ⟨S_, .f32⟩
  | .hbm, ⟨41, _⟩ => ⟨S128x3x52x52, .f32⟩
  | .hbm, ⟨42, _⟩ => ⟨S128x3x52x52, .f32⟩
  | .hbm, ⟨43, _⟩ => ⟨S128x3x52x52x1, .f32⟩
  | .hbm, ⟨44, _⟩ => ⟨S128x3x52x52x15, .f32⟩
  | .hbm, ⟨45, _⟩ => ⟨S128x3x52x52x15, .f32⟩
  | .hbm, ⟨46, _⟩ => ⟨S128x3x52x52x15, .f32⟩
  | .hbm, ⟨47, _⟩ => ⟨S_, .f32⟩
  | .hbm, ⟨48, _⟩ => ⟨S128x3x52x52, .f32⟩
  | .hbm, ⟨49, _⟩ => ⟨S128x3x52x52x1, .f32⟩
  | .hbm, ⟨50, _⟩ => ⟨S128x3x52x52x15, .f32⟩
  | .hbm, ⟨51, _⟩ => ⟨S128x3x52x52x15, .f32⟩
  | .hbm, ⟨52, _⟩ => ⟨S128x3x52x52x1, .f32⟩
  | .hbm, ⟨53, _⟩ => ⟨S128x3x52x52x1, .f32⟩
  | .hbm, ⟨54, _⟩ => ⟨S128x3x52x52x1, .f32⟩
  | .hbm, ⟨55, _⟩ => ⟨S128x3x52x52x1, .f32⟩
  | .hbm, ⟨56, _⟩ => ⟨S128x3x52x52x4, .f32⟩
  | .hbm, ⟨57, _⟩ => ⟨S128x8112x4, .f32⟩
  | .hbm, ⟨58, _⟩ => ⟨S_, .f32⟩
  | .hbm, ⟨59, _⟩ => ⟨S128x8112x4, .f32⟩
  | .hbm, ⟨60, _⟩ => ⟨S128x8112x4, .f32⟩
  | .hbm, ⟨61, _⟩ => ⟨S128x8112x1, .f32⟩
  | .hbm, ⟨62, _⟩ => ⟨S128x8112x15, .f32⟩
  | .hbm, ⟨63, _⟩ => ⟨S128x8112x20, .f32⟩
  | _, _ => ⟨S128x60x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩
abbrev main_cst_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_7 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_8 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]

class Facts₀ : Prop where
  shapeCasts_S128x60x52x52_S128x3x20x52x52 : S128x60x52x52.ShapeCasts S128x3x20x52x52
  transposes_S128x3x20x52x52_S128x3x52x52x20_0_1_3_4_2 : S128x3x20x52x52.Transposes [0, 1, 3, 4, 2] S128x3x52x52x20
  slices_S128x3x52x52x20_S128x3x52x52x1_0_0_0_0_0 : S128x3x52x52x20.Slices ![0, 0, 0, 0, 0] S128x3x52x52x1
  shapeCasts_S128x3x52x52x1_S128x3x52x52 : S128x3x52x52x1.ShapeCasts S128x3x52x52
  bcast_S_S128x3x52x52 : S_.BroadcastsInDim S128x3x52x52 (![] : Fin 0 → Fin S128x3x52x52.rank)
  slices_S128x3x52x52x20_S128x3x52x52x1_0_0_0_0_1 : S128x3x52x52x20.Slices ![0, 0, 0, 0, 1] S128x3x52x52x1
  slices_S128x3x52x52x20_S128x3x52x52x1_0_0_0_0_2 : S128x3x52x52x20.Slices ![0, 0, 0, 0, 2] S128x3x52x52x1
  slices_S128x3x52x52x20_S128x3x52x52x1_0_0_0_0_3 : S128x3x52x52x20.Slices ![0, 0, 0, 0, 3] S128x3x52x52x1
  slices_S128x3x52x52x20_S128x3x52x52x1_0_0_0_0_4 : S128x3x52x52x20.Slices ![0, 0, 0, 0, 4] S128x3x52x52x1
  slices_S128x3x52x52x20_S128x3x52x52x15_0_0_0_0_5 : S128x3x52x52x20.Slices ![0, 0, 0, 0, 5] S128x3x52x52x15
  reducesTo_S128x3x52x52x15_S128x3x52x52_d4 : S128x3x52x52x15.ReducesTo [4] S128x3x52x52
  h_S_ : 0 < S_.numel
  bcast_S128x3x52x52_S128x3x52x52x1_0_1_2_3 : S128x3x52x52.BroadcastsInDim S128x3x52x52x1 (![0, 1, 2, 3] : Fin 4 → Fin S128x3x52x52x1.rank)
  bcast_S128x3x52x52x1_S128x3x52x52x15_0_1_2_3_4 : S128x3x52x52x1.BroadcastsInDim S128x3x52x52x15 (![0, 1, 2, 3, 4] : Fin 5 → Fin S128x3x52x52x15.rank)
  concatenates_S128x3x52x52x1_S128x3x52x52x1_S128x3x52x52x1_S128x3x52x52x1_S128x3x52x52x4_d4 : Shape.Concatenates [S128x3x52x52x1, S128x3x52x52x1, S128x3x52x52x1, S128x3x52x52x1] S128x3x52x52x4 4
  shapeCasts_S128x3x52x52x4_S128x8112x4 : S128x3x52x52x4.ShapeCasts S128x8112x4
  bcast_S_S128x8112x4 : S_.BroadcastsInDim S128x8112x4 (![] : Fin 0 → Fin S128x8112x4.rank)
  shapeCasts_S128x3x52x52_S128x8112x1 : S128x3x52x52.ShapeCasts S128x8112x1
  shapeCasts_S128x3x52x52x15_S128x8112x15 : S128x3x52x52x15.ShapeCasts S128x8112x15
  concatenates_S128x8112x4_S128x8112x1_S128x8112x15_S128x8112x20_d2 : Shape.Concatenates [S128x8112x4, S128x8112x1, S128x8112x15] S128x8112x20 2

variable [Facts₀]

class Facts : Prop extends Facts₀ where

variable [Facts]
-- ==== Proof.Pixel.lean ====
/-
  The per-pixel decode of a YOLO head, as one function on the extended reals.

  A pixel is the 20 channel values `z 0 … z 19` of one (batch, anchor, row, column) position. Its decode is
    channels 0, 1   ↦  σ(z) · 8            (box centre: logistic, scaled by the stride)
    channels 2, 3   ↦  z · 8               (box size: scaled only)
    channel  4      ↦  σ(z)                (objectness)
    channels 5 … 19 ↦  exp(z − M) / Σₖ exp(z₅₊ₖ − M),  M = max(−∞, z₅, …, z₁₉)   (class softmax, shifted by the maximum)
  with σ(x) = 1 / (1 + e⁻ˣ) read on the extended reals. Both programs compute exactly this at every pixel; they differ
  only in how the 128·3·52·52 pixels are laid out in memory while it is computed.
-/
import Idealize.ShloMosaic.PureOps.Ideal
import Idealize.ShloMosaic.PureOps.Ideal.Laws
import Idealize.ShloMosaic.Lib.ValueIdx

noncomputable section

namespace Cert.Pixel

open Idealize.ShloMosaic

/-- Class channel `k` of a pixel is channel `5 + k`. -/
abbrev cls (k : Fin 15) : Fin 20 := ⟨5 + k.val, by have := k.isLt; omega⟩

/-- The stride, 8. -/
abbrev eight : EReal := Ideal.ofBits .f32 0x41000000#32

/-- The value the class maximum starts from, −∞. -/
abbrev low : EReal := Ideal.ofBits .f32 0xFF800000#32

/-- The largest class logit of a pixel (a fold of `max` from −∞ over the fifteen class channels). -/
def top (z : Fin 20 → EReal) : EReal := (Finset.univ : Finset (Fin 15)).fold max low (fun k => z (cls k))

/-- The softmax denominator: the sum of the shifted exponentials of the class logits. -/
def mass (z : Fin 20 → EReal) : EReal := ∑ k : Fin 15, Ideal.exp (z (cls k) - top z)

/-- The decode of a pixel, channel by channel. -/
def pix (z : Fin 20 → EReal) (ch : Fin 20) : EReal :=
  if ch.val < 2 then Ideal.logistic (z ch) * eight
  else if ch.val < 4 then z ch * eight
  else if ch.val < 5 then Ideal.logistic (z ch)
  else Ideal.div (Ideal.exp (z ch - top z)) (mass z)

theorem pix_xy (z : Fin 20 → EReal) (ch : Fin 20) (h : ch.val < 2) : pix z ch = Ideal.logistic (z ch) * eight := by
  unfold pix; rw [if_pos h]

theorem pix_wh (z : Fin 20 → EReal) (ch : Fin 20) (h2 : ¬ch.val < 2) (h4 : ch.val < 4) : pix z ch = z ch * eight := by
  unfold pix; rw [if_neg h2, if_pos h4]

theorem pix_conf (z : Fin 20 → EReal) (ch : Fin 20) (h4 : ch.val = 4) : pix z ch = Ideal.logistic (z ch) := by
  unfold pix; rw [if_neg (by omega), if_neg (by omega), if_pos (by omega)]

theorem pix_cls (z : Fin 20 → EReal) (ch : Fin 20) (h5 : 5 ≤ ch.val) :
    pix z ch = Ideal.div (Ideal.exp (z ch - top z)) (mass z) := by
  unfold pix; rw [if_neg (by omega), if_neg (by omega), if_neg (by omega)]

/-- Taking the maximum with −∞ once more changes nothing: the fold already starts there. -/
theorem max_low_top (z : Fin 20 → EReal) : max low (top z) = top z := by
  unfold top
  exact max_eq_right ((Finset.le_fold_max _).2 (Or.inl le_rfl))

/-! ## The whole result

The input is x[b, c, h, w] over (128, 60, 52, 52): 60 = 3 anchors × 20 channels. The result is out[b, r, ch] over
(128, 8112, 20), 8112 = 3 · 52 · 52: row `r = 2704·a + 52·h + w` is the pixel (h, w) of anchor `a`, and its 20 entries are
the decode of that pixel's channels x[b, 20·a + ·, h, w]. -/

open Idealize.ShloMosaic.ValueIdx in
/-- The decoded detections of a whole input. -/
def detect (x : (⟨4, ![128, 60, 52, 52]⟩ : Shape).Idx → EReal) : (⟨3, ![128, 8112, 20]⟩ : Shape).Idx → EReal := fun j =>
  pix (fun c' : Fin 20 => x (ix4 (j 0)
      (⟨20 * ((j 1).val / 2704) + c'.val, by have h : (j 1).val < 8112 := (j 1).isLt; have := c'.isLt; omega⟩ : Fin 60)
      (⟨(j 1).val % 2704 / 52, by omega⟩ : Fin 52)
      (⟨(j 1).val % 52, by omega⟩ : Fin 52))) (j 2)

end Cert.Pixel

end
-- ==== Proof.Payload.lean ====
/-
  The kernel body's arithmetic, read at an index.

  At a grid point the body loads a block `v0` of shape [4, 52, 60, 128] = (row, column, channel, batch), flattens the
  first two axes to one pixel axis of 208 = 4·52, cuts the 20 channels of the point's anchor out of the 60
  (offset 0, 20 or 40), moves the channel axis to the front, and decodes: the result block, of shape [20, 1, 208, 128],
  holds at (ch, 0, p, b) the decode `pix` of the pixel whose 20 channels are `v0 (p / 52, p % 52, off + ·, b)`.
  The three stores of the body (one per anchor) differ only in `off`, so the arithmetic is stated once, as the
  function `dec` of the channel-major block.
-/
import proofs.«102766_g11012296147525_week1_w3_721_13_alg».proof.Proof.Gen.KernelIdeal.Skeleton
import proofs.«102766_g11012296147525_week1_w3_721_13_alg».proof.Proof.Pixel
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.Pixel

variable {F : FTy → Type} [FloatOps F]

/-! ## The decode of a channel-major block, operation by operation -/

/-- The class logits: channels 5 … 19. -/
def logits (u : FVec F S20x208x128 .f32) : FVec F S15x208x128 .f32 :=
  extractStridedSlice S15x208x128 ![5, 0, 0] u slices_S20x208x128_o5_0_0_S15x208x128

/-- The largest class logit of each pixel, repeated along the class axis. -/
def peak (u : FVec F S20x208x128 .f32) : FVec F S15x208x128 .f32 :=
  broadcastTo S15x208x128
    (shapeCast S1x208x128 (multiReduction .maximumf [0] S208x128 (logits u) 0xFF800000#32 reduces_S15x208x128_S208x128 (.inl rfl) rfl)
      shapeCasts_S208x128_S1x208x128) broadcasts_S1x208x128_S15x208x128

/-- The shifted exponentials of the class logits. -/
def expo (u : FVec F S20x208x128 .f32) : FVec F S15x208x128 .f32 := exp (subf (logits u) (peak u))

/-- Their sum over the classes, repeated along the class axis. -/
def total (u : FVec F S20x208x128 .f32) : FVec F S15x208x128 .f32 :=
  broadcastTo S15x208x128
    (shapeCast S1x208x128 (multiReduction .add [0] S208x128 (expo u) 0x00000000#32 reduces_S15x208x128_S208x128 (.inl rfl) rfl)
      shapeCasts_S208x128_S1x208x128) broadcasts_S1x208x128_S15x208x128

/-- Box centre: the logistic of channels 0 and 1, times the stride. -/
def centre (u : FVec F S20x208x128 .f32) : FVec F S2x208x128 .f32 :=
  mulf (logistic (extractStridedSlice S2x208x128 ![0, 0, 0] u slices_S20x208x128_o0_0_0_S2x208x128))
    (broadcast S2x208x128 (Scalar.ofBits .f32 0x41000000#32))

/-- Box size: channels 2 and 3 times the stride. -/
def extent (u : FVec F S20x208x128 .f32) : FVec F S2x208x128 .f32 :=
  mulf (extractStridedSlice S2x208x128 ![2, 0, 0] u slices_S20x208x128_o2_0_0_S2x208x128)
    (broadcast S2x208x128 (Scalar.ofBits .f32 0x41000000#32))

/-- Objectness: the logistic of channel 4. -/
def score (u : FVec F S20x208x128 .f32) : FVec F S1x208x128 .f32 :=
  logistic (extractStridedSlice S1x208x128 ![4, 0, 0] u slices_S20x208x128_o4_0_0_S1x208x128)

/-- Class probabilities: the softmax of channels 5 … 19. -/
def probs (u : FVec F S20x208x128 .f32) : FVec F S15x208x128 .f32 := divf (expo u) (total u)

/-- The decode of a channel-major block: the four groups laid end to end along the channel axis. -/
def dec (u : FVec F S20x208x128 .f32) : FVec F S20x208x128 .f32 :=
  concatenate S20x208x128 0 [⟨S2x208x128, centre u⟩, ⟨S2x208x128, extent u⟩, ⟨S1x208x128, score u⟩, ⟨S15x208x128, probs u⟩]
    concatenates_S2x208x128_S2x208x128_S1x208x128_S15x208x128_S20x208x128_d0

/-- The channel-major block of the anchor whose channels start at `off`: the loaded block with its two spatial axes
    flattened, the anchor's 20 channels cut out, the channel axis moved to the front. -/
def anchor (off : Fin 3 → Nat) (h : S208x60x128.Slices off S208x20x128) (v0 : Vec F S4x52x60x128 .f32) : FVec F S20x208x128 .f32 :=
  transpose S20x208x128 [1, 0, 2] (extractStridedSlice S208x20x128 off (k0_pay1 v0) h) transposes_S208x20x128_p1_0_2_S20x208x128

/-- The three stored values of the body are the decode of the three anchors' blocks, with a unit axis put in. -/
theorem pay2_eq (v0 : Vec F S4x52x60x128 .f32) :
    k0_pay2 v0 = shapeCast S20x1x208x128 (dec (anchor ![0, 0, 0] slices_S208x60x128_o0_0_0_S208x20x128 v0)) shapeCasts_S20x208x128_S20x1x208x128 := rfl
theorem pay3_eq (v0 : Vec F S4x52x60x128 .f32) :
    k0_pay3 v0 = shapeCast S20x1x208x128 (dec (anchor ![0, 20, 0] slices_S208x60x128_o0_20_0_S208x20x128 v0)) shapeCasts_S20x208x128_S20x1x208x128 := rfl
theorem pay4_eq (v0 : Vec F S4x52x60x128 .f32) :
    k0_pay4 v0 = shapeCast S20x1x208x128 (dec (anchor ![0, 40, 0] slices_S208x60x128_o0_40_0_S208x20x128 v0)) shapeCasts_S20x208x128_S20x1x208x128 := rfl

/-! ## The decode read at an index, at the ideal values -/

section AtIdeal

variable (u : FVec Ideal S20x208x128 .f32) (p : Fin 208) (b : Fin 128)

/-- Pixel `(p, b)` of a channel-major block: its 20 channel values. -/
abbrev pixel : Fin 20 → EReal := fun c' => u (ix3 c' p b)

/-- A band of `n` channels starting at channel `o`, read at (q, p, b), is the block at channel `o + q`. -/
theorem band_apply {n : Nat} (o : Nat) (h : S20x208x128.Slices ![o, 0, 0] ⟨3, ![n, 208, 128]⟩)
    (q : Fin n) (c' : Fin 20) (hc : c'.val = o + q.val) :
    extractStridedSlice ⟨3, ![n, 208, 128]⟩ ![o, 0, 0] u h (ix3 q p b) = u (ix3 c' p b) :=
  extractStridedSlice_apply _ u h _ _ (fun a => match a with
    | ⟨0, _⟩ => hc
    | ⟨1, _⟩ => (Nat.zero_add _).symm
    | ⟨2, _⟩ => (Nat.zero_add _).symm)

/-- The index the class reduction reads for class `k` at pixel (p, b). -/
theorem lift_eq (k : Fin 15) : reduces_S15x208x128_S208x128.lift (ix2 p b) k = ix3 k p b :=
  funext fun a => match a with
    | ⟨0, _⟩ => Fin.ext rfl
    | ⟨1, _⟩ => Fin.ext rfl
    | ⟨2, _⟩ => Fin.ext rfl

theorem logits_apply (k : Fin 15) : logits u (ix3 k p b) = pixel u p b (cls k) :=
  band_apply u p b 5 _ k (cls k) rfl

/-- The class logits along the reduced axis at pixel (p, b) are the pixel's class channels. -/
theorem logits_lift : (logits u ∘ reduces_S15x208x128_S208x128.lift (ix2 p b)) = fun k : Fin 15 => pixel u p b (cls k) :=
  funext fun k => (congrArg (logits u) (lift_eq p b k)).trans (logits_apply u p b k)

/-- Every class row of `peak` holds the pixel's largest class logit. -/
theorem peak_apply (q : Fin 15) : peak u (ix3 q p b) = top (pixel u p b) := by
  unfold peak
  rw [broadcastTo_apply _ broadcasts_S1x208x128_S15x208x128 (ix3 q p b) (ix3 (0 : Fin 1) p b)
        (fun a => match a with | ⟨0, _⟩ => rfl | ⟨1, _⟩ => rfl | ⟨2, _⟩ => rfl),
      shapeCast_ab_1ab_apply]
  refine (Ideal.multiReduction_maximumf_single (logits u) _ reduces_S15x208x128_S208x128 _ _ (ix2 p b)).trans ?_
  unfold top
  exact congrArg (fun f => (Finset.univ : Finset (Fin 15)).fold max low f) (logits_lift u p b)

theorem expo_apply (k : Fin 15) : expo u (ix3 k p b) = Ideal.exp (pixel u p b (cls k) - top (pixel u p b)) := by
  show Ideal.exp (logits u (ix3 k p b) - peak u (ix3 k p b)) = _
  rw [logits_apply, peak_apply]

/-- The shifted exponentials along the reduced axis at pixel (p, b). -/
theorem expo_lift : (fun k : Fin 15 => expo u (reduces_S15x208x128_S208x128.lift (ix2 p b) k))
    = fun k : Fin 15 => Ideal.exp (pixel u p b (cls k) - top (pixel u p b)) :=
  funext fun k => by rw [lift_eq, expo_apply]

/-- Every class row of `total` holds the pixel's softmax denominator. -/
theorem total_apply (q : Fin 15) : total u (ix3 q p b) = mass (pixel u p b) := by
  unfold total
  rw [broadcastTo_apply _ broadcasts_S1x208x128_S15x208x128 (ix3 q p b) (ix3 (0 : Fin 1) p b)
        (fun a => match a with | ⟨0, _⟩ => rfl | ⟨1, _⟩ => rfl | ⟨2, _⟩ => rfl),
      shapeCast_ab_1ab_apply]
  refine (Ideal.multiReduction_add_single (expo u) _ reduces_S15x208x128_S208x128 _ _ (ix2 p b)).trans ?_
  unfold mass
  exact congrArg (fun f : Fin 15 → EReal => ∑ k : Fin 15, f k) (expo_lift u p b)

theorem centre_apply (q : Fin 2) (c' : Fin 20) (hc : c'.val = 0 + q.val) :
    centre u (ix3 q p b) = Ideal.logistic (pixel u p b c') * eight := by
  show Ideal.logistic (extractStridedSlice S2x208x128 ![0, 0, 0] u slices_S20x208x128_o0_0_0_S2x208x128 (ix3 q p b)) * eight = _
  rw [band_apply u p b 0 _ q c' hc]

theorem extent_apply (q : Fin 2) (c' : Fin 20) (hc : c'.val = 2 + q.val) :
    extent u (ix3 q p b) = pixel u p b c' * eight := by
  show extractStridedSlice S2x208x128 ![2, 0, 0] u slices_S20x208x128_o2_0_0_S2x208x128 (ix3 q p b) * eight = _
  rw [band_apply u p b 2 _ q c' hc]

theorem score_apply (q : Fin 1) (c' : Fin 20) (hc : c'.val = 4 + q.val) :
    score u (ix3 q p b) = Ideal.logistic (pixel u p b c') := by
  show Ideal.logistic (extractStridedSlice S1x208x128 ![4, 0, 0] u slices_S20x208x128_o4_0_0_S1x208x128 (ix3 q p b)) = _
  rw [band_apply u p b 4 _ q c' hc]

theorem probs_apply (k : Fin 15) :
    probs u (ix3 k p b) = Ideal.div (Ideal.exp (pixel u p b (cls k) - top (pixel u p b))) (mass (pixel u p b)) := by
  show Ideal.div (expo u (ix3 k p b)) (total u (ix3 k p b)) = _
  rw [expo_apply, total_apply]

/-- THE DECODE AT AN INDEX: channel `ch` of pixel (p, b) of the decoded block is `pix` of that pixel's channels. -/
theorem dec_apply (ch : Fin 20) : dec u (ix3 ch p b) = pix (pixel u p b) ch := by
  unfold dec
  by_cases h2 : ch.val < 2
  · rw [pix_xy _ _ h2]
    refine (concatenate_apply_piece (0 : Fin 3) _ _ (ix3 ch p b) 0 (by show (0 : Nat) < 4; omega) S2x208x128 (centre u) rfl rfl 0 rfl
      (ix3 (⟨ch.val, h2⟩ : Fin 2) p b)
      (fun a ha => match a, ha with | ⟨0, _⟩, ha => absurd rfl ha | ⟨1, _⟩, _ => rfl | ⟨2, _⟩, _ => rfl)
      (Nat.zero_add _)).trans ?_
    exact centre_apply u p b ⟨ch.val, h2⟩ ch (Nat.zero_add _).symm
  · by_cases h4 : ch.val < 4
    · rw [pix_wh _ _ h2 h4]
      refine (concatenate_apply_piece (0 : Fin 3) _ _ (ix3 ch p b) 1 (by show (1 : Nat) < 4; omega) S2x208x128 (extent u) rfl rfl 2 rfl
        (ix3 (⟨ch.val - 2, by omega⟩ : Fin 2) p b)
        (fun a ha => match a, ha with | ⟨0, _⟩, ha => absurd rfl ha | ⟨1, _⟩, _ => rfl | ⟨2, _⟩, _ => rfl)
        (by show 2 + (ch.val - 2) = ch.val; omega)).trans ?_
      exact extent_apply u p b ⟨ch.val - 2, by omega⟩ ch (by show ch.val = 2 + (ch.val - 2); omega)
    · by_cases h5 : ch.val < 5
      · rw [pix_conf _ _ (by omega)]
        refine (concatenate_apply_piece (0 : Fin 3) _ _ (ix3 ch p b) 2 (by show (2 : Nat) < 4; omega) S1x208x128 (score u) rfl rfl 4 rfl
          (ix3 (⟨ch.val - 4, by omega⟩ : Fin 1) p b)
          (fun a ha => match a, ha with | ⟨0, _⟩, ha => absurd rfl ha | ⟨1, _⟩, _ => rfl | ⟨2, _⟩, _ => rfl)
          (by show 4 + (ch.val - 4) = ch.val; omega)).trans ?_
        exact score_apply u p b ⟨ch.val - 4, by omega⟩ ch (by show ch.val = 4 + (ch.val - 4); omega)
      · rw [pix_cls _ _ (by omega)]
        have hk : ch.val - 5 < 15 := by have := ch.isLt; omega
        have hcls : cls ⟨ch.val - 5, hk⟩ = ch := Fin.ext (by show 5 + (ch.val - 5) = ch.val; omega)
        refine (concatenate_apply_piece (0 : Fin 3) _ _ (ix3 ch p b) 3 (by show (3 : Nat) < 4; omega) S15x208x128 (probs u) rfl rfl 5 rfl
          (ix3 (⟨ch.val - 5, hk⟩ : Fin 15) p b)
          (fun a ha => match a, ha with | ⟨0, _⟩, ha => absurd rfl ha | ⟨1, _⟩, _ => rfl | ⟨2, _⟩, _ => rfl)
          (by show 5 + (ch.val - 5) = ch.val; omega)).trans ?_
        rw [probs_apply, hcls]

end AtIdeal

/-! ## The anchor's block and the stored value read at an index -/

section Stored

variable (v0 : Vec Ideal S4x52x60x128 .f32)

/-- Pixel `p = 52·r + w` of the anchor whose channels start at `off`: the loaded block at (r, w, off + ·, b). -/
theorem anchor_apply (o : Nat) (h : S208x60x128.Slices ![0, o, 0] S208x20x128) (c' : Fin 20) (p : Fin 208) (b : Fin 128)
    (r : Fin 4) (w : Fin 52) (hp : p.val = r.val * 52 + w.val) (c : Fin 60) (hc : c.val = o + c'.val) :
    anchor ![0, o, 0] h v0 (ix3 c' p b) = v0 (ix4 r w c b) := by
  unfold anchor
  refine (transpose_apply [1, 0, 2] _ transposes_S208x20x128_p1_0_2_S20x208x128 (ix3 c' p b) (ix3 p c' b)
    (fun a => match a with | ⟨0, _⟩ => rfl | ⟨1, _⟩ => rfl | ⟨2, _⟩ => rfl)).trans ?_
  refine (extractStridedSlice_apply _ (k0_pay1 v0) h (ix3 p c' b) (ix3 p c b)
    (fun a => match a with | ⟨0, _⟩ => (Nat.zero_add _).symm | ⟨1, _⟩ => hc | ⟨2, _⟩ => (Nat.zero_add _).symm)).trans ?_
  unfold k0_pay1
  rw [shapeCast_self]
  exact shapeCast_apply v0 shapeCasts_S4x52x60x128_S208x60x128 (ix3 p c b) (ix4 r w c b) (by
    rw [Shape.rowMajor_val_four, Shape.rowMajor_val_three]
    show ((r.val * 52 + w.val) * 60 + c.val) * 128 + b.val = (p.val * 60 + c.val) * 128 + b.val
    rw [hp])

/-- THE STORED VALUE AT AN INDEX: for the anchor whose channels start at `o`, the stored block at (ch, 0, p, b) is the
    decode of the pixel `v0 (r, w, o + ·, b)`, p = 52·r + w. -/
theorem stored_apply (o : Nat) (ho : o + 20 ≤ 60) (h : S208x60x128.Slices ![0, o, 0] S208x20x128)
    (ch : Fin 20) (e : Fin 1) (p : Fin 208) (b : Fin 128) (r : Fin 4) (w : Fin 52) (hp : p.val = r.val * 52 + w.val) :
    shapeCast S20x1x208x128 (dec (anchor ![0, o, 0] h v0)) shapeCasts_S20x208x128_S20x1x208x128 (ix4 ch e p b)
      = pix (fun c' : Fin 20 => v0 (ix4 r w (⟨o + c'.val, by have := c'.isLt; omega⟩ : Fin 60) b)) ch := by
  refine (shapeCast_apply _ shapeCasts_S20x208x128_S20x1x208x128 (ix4 ch e p b) (ix3 ch p b) (by
    have he : e.val = 0 := by omega
    rw [Shape.rowMajor_val_three, Shape.rowMajor_val_four]
    show (ch.val * 208 + p.val) * 128 + b.val = ((ch.val * 1 + e.val) * 208 + p.val) * 128 + b.val
    rw [he]; omega)).trans ?_
  rw [dec_apply]
  congr 1
  funext c'
  exact anchor_apply v0 o h c' p b r w hp _ rfl

end Stored

end Cert.KernelIdeal.Payload

end
-- ==== Proof.Blocks.lean ====
/-
  What the kernel's program leaves in its result array, at the ideal values.

  The pallas_call runs over the grid (13, 3): point t = 3·hb + a handles the four image rows 4·hb … 4·hb + 3 of
  anchor a. Its input block is rows 4·hb … of the transposed input xt[h, w, c, b]; its output block is
  out1[·, a, 208·hb … 208·hb + 207, ·] of the array out1[ch, a, g, b], g = 52·h + w. Each of the three control cases
  (one per anchor) stores exactly one value, the decode of the anchor's channels (Payload.lean), so the block a point
  writes back depends on that point's input block alone; the 39 blocks tile out1, and out1 is one function `laid` of xt.
  After the call @main merges the two middle axes (r = 2704·a + g) and reverses the axis order: the result is
  `detect` of the input (Pixel.lean).
-/
import proofs.«102766_g11012296147525_week1_w3_721_13_alg».proof.Defs
import proofs.«102766_g11012296147525_week1_w3_721_13_alg».proof.Proof.Gen.KernelIdeal.Frame
import proofs.«102766_g11012296147525_week1_w3_721_13_alg».proof.Proof.Payload
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.Pixel

/-! ## Each control case leaves its one stored value -/

section Cases

variable {F : FTy → Type} [FloatOps F]

theorem hz : (![0, 0, 0, 0] : Fin 4 → Nat) = fun _ => 0 := funext fun a => by fin_cases a <;> rfl

/-- Anchor 0's case: the output's staging buffer ends holding the decode of channels 0 … 19 of the input block. -/
theorem out_A (c : Dev nD) (i : grid0.Coords) (a2 : Memref sig .tc .vmem S4x52x60x128 .f32) (h2 : a2.IsWhole)
    (a3 : Memref sig .tc .vmem S20x1x208x128 .f32) (h3 : a3.IsWhole) (hc0 : cond0_0 i) (hc1 : ¬cond0_1 i) (hc2 : ¬cond0_2 i)
    (x0 : Vec F S4x52x60x128 .f32) : out0_A_1 c i a2 h2 a3 h3 hc0 hc1 hc2 x0 = k0_pay2 x0 := by
  unfold out0_A_1
  rw [View.read_writes_eq_canon _ _ _ (cover0_A_1 c i a2 h2 a3 h3 hc0 hc1 hc2 x0)]
  unfold kernelRun0_A
  dsimp only
  sl_unfold_words
  rw [View.canon_unit_zero hz]
  simp only [View.readAt_eq_ld, h2.read_unread, View.ld_unit_zero (S := S20x1x208x128) hz, View.ld_unit_zero (S := S4x52x60x128) hz]

/-- Anchor 1's case: channels 20 … 39. -/
theorem out_B (c : Dev nD) (i : grid0.Coords) (a2 : Memref sig .tc .vmem S4x52x60x128 .f32) (h2 : a2.IsWhole)
    (a3 : Memref sig .tc .vmem S20x1x208x128 .f32) (h3 : a3.IsWhole) (hc0 : ¬cond0_0 i) (hc1 : cond0_1 i) (hc2 : ¬cond0_2 i)
    (x0 : Vec F S4x52x60x128 .f32) : out0_B_1 c i a2 h2 a3 h3 hc0 hc1 hc2 x0 = k0_pay3 x0 := by
  unfold out0_B_1
  rw [View.read_writes_eq_canon _ _ _ (cover0_B_1 c i a2 h2 a3 h3 hc0 hc1 hc2 x0)]
  unfold kernelRun0_B
  dsimp only
  sl_unfold_words
  rw [View.canon_unit_zero hz]
  simp only [View.readAt_eq_ld, h2.read_unread, View.ld_unit_zero (S := S20x1x208x128) hz, View.ld_unit_zero (S := S4x52x60x128) hz]

/-- Anchor 2's case: channels 40 … 59. -/
theorem out_C (c : Dev nD) (i : grid0.Coords) (a2 : Memref sig .tc .vmem S4x52x60x128 .f32) (h2 : a2.IsWhole)
    (a3 : Memref sig .tc .vmem S20x1x208x128 .f32) (h3 : a3.IsWhole) (hc0 : ¬cond0_0 i) (hc1 : ¬cond0_1 i) (hc2 : cond0_2 i)
    (x0 : Vec F S4x52x60x128 .f32) : out0_C_1 c i a2 h2 a3 h3 hc0 hc1 hc2 x0 = k0_pay4 x0 := by
  unfold out0_C_1
  rw [View.read_writes_eq_canon _ _ _ (cover0_C_1 c i a2 h2 a3 h3 hc0 hc1 hc2 x0)]
  unfold kernelRun0_C
  dsimp only
  sl_unfold_words
  rw [View.canon_unit_zero hz]
  simp only [View.readAt_eq_ld, h2.read_unread, View.ld_unit_zero (S := S20x1x208x128) hz, View.ld_unit_zero (S := S4x52x60x128) hz]

end Cases

/-! ## The blocks, at the ideal values -/

section AtIdeal

variable (m : (ℓ : Loc nD τ sig) → Buf (Elt Ideal) ℓ) (ρ : Dev nD → PrngReg)

/-- The printed index maps over the grid: point t = 3·hb + a reads row block hb of the input and writes block (a, hb)
    of the output. -/
theorem idx_facts : ∀ t : Fin cfg0.N,
    win0_0.index t (0 : Fin 4) = t.val / 3 ∧ win0_0.index t (1 : Fin 4) = 0 ∧ win0_0.index t (2 : Fin 4) = 0 ∧ win0_0.index t (3 : Fin 4) = 0
    ∧ win0_1.index t (0 : Fin 4) = 0 ∧ win0_1.index t (1 : Fin 4) = t.val % 3 ∧ win0_1.index t (2 : Fin 4) = t.val / 3 ∧ win0_1.index t (3 : Fin 4) = 0 :=
  (by decide +kernel : ∀ t : Fin grid0.N, _)

/-- The array the pallas_call leaves, as one function of the transposed input xt[h, w, c, b]: at (ch, a, g, b) the
    decode of pixel (g / 52, g % 52) of anchor a of batch b. -/
def laid (xt : FVec Ideal S52x52x60x128 .f32) : FVec Ideal S20x3x2704x128 .f32 := fun j =>
  pix (fun c' : Fin 20 => xt (ix4
      (⟨(j 2).val / 52, by have h : (j 2).val < 2704 := (j 2).isLt; omega⟩ : Fin 52)
      (⟨(j 2).val % 52, by omega⟩ : Fin 52)
      (⟨20 * (j 1).val + c'.val, by have h : (j 1).val < 3 := (j 1).isLt; have := c'.isLt; omega⟩ : Fin 60)
      (j 3))) (j 0)

/-- A stored block at any index of its own: pixel p = (y 2) of the block is image row p / 52, column p % 52. -/
theorem stored_at (o : Nat) (ho : o + 20 ≤ 60) (h : S208x60x128.Slices ![0, o, 0] S208x20x128)
    (x0 : Vec Ideal S4x52x60x128 .f32) (y : S20x1x208x128.Idx) :
    shapeCast S20x1x208x128 (dec (anchor ![0, o, 0] h x0)) shapeCasts_S20x208x128_S20x1x208x128 y
      = pix (fun c' : Fin 20 => x0 (ix4 (⟨(y 2).val / 52, by have h : (y 2).val < 208 := (y 2).isLt; omega⟩ : Fin 4)
          (⟨(y 2).val % 52, by omega⟩ : Fin 52) (⟨o + c'.val, by have := c'.isLt; omega⟩ : Fin 60) (y 3))) (y 0) := by
  conv_lhs => rw [eq_ix4 y]
  exact stored_apply x0 o ho h (y 0) (y 1) (y 2) (y 3) ⟨(y 2).val / 52, by have h : (y 2).val < 208 := (y 2).isLt; omega⟩
    ⟨(y 2).val % 52, by omega⟩ (by show (y 2).val = (y 2).val / 52 * 52 + (y 2).val % 52; omega)

/-- The input block of point t read at an index: rows 4·(t / 3) … of the transposed input as the call finds it. -/
theorem iblk_apply (c : Dev nD) (t : Fin cfg0.N) (i : S4x52x60x128.Idx) (k : S52x52x60x128.Idx)
    (hk0 : (k 0).val = t.val / 3 * 4 + (i 0).val) (hk1 : (k 1).val = (i 1).val) (hk2 : (k 2).val = (i 2).val)
    (hk3 : (k 3).val = (i 3).val) :
    (iblk m c 0 t : Vec Ideal S4x52x60x128 .f32) i = V m c main_v0 k := by
  obtain ⟨e0, e1, e2, e3, -⟩ := idx_facts t
  unfold iblk
  rw [View.read_apply]
  show V m c main_v0 _ = V m c main_v0 k
  congr 1
  funext a
  apply Fin.ext
  match a with
  | ⟨0, _⟩ => show win0_0.index t (0 : Fin 4) * 4 + 1 * (i 0).val = (k 0).val; rw [e0, hk0]; omega
  | ⟨1, _⟩ => show win0_0.index t (1 : Fin 4) * 52 + 1 * (i 1).val = (k 1).val; rw [e1, hk1]; omega
  | ⟨2, _⟩ => show win0_0.index t (2 : Fin 4) * 60 + 1 * (i 2).val = (k 2).val; rw [e2, hk2]; omega
  | ⟨3, _⟩ => show win0_0.index t (3 : Fin 4) * 128 + 1 * (i 3).val = (k 3).val; rw [e3, hk3]; omega

/-- The decode of anchor (t mod 3)'s channels of point t's input block IS block t of `laid`. -/
theorem decoded_block (c : Dev nD) (t : Fin cfg0.N) (o : Nat) (ho : o + 20 ≤ 60) (h : S208x60x128.Slices ![0, o, 0] S208x20x128)
    (hot : o = 20 * (t.val % 3)) :
    (shapeCast S20x1x208x128 (dec (anchor ![0, o, 0] h (iblk m c 0 t))) shapeCasts_S20x208x128_S20x1x208x128 : Vec Ideal S20x1x208x128 .f32)
      = ((cfg0.win 1).blk t).view.read (Elt Ideal) (laid (V m c main_v0)) := by
  obtain ⟨-, -, -, -, f0, f1, f2, f3⟩ := idx_facts t
  funext y
  rw [stored_at o ho h (iblk m c 0 t) y, View.read_apply]
  show _ = laid (V m c main_v0) (((cfg0.win 1).blk t).view.emb y)
  unfold laid
  have h1 : (y 1).val < 1 := (y 1).isLt
  have h2 : (y 2).val < 208 := (y 2).isLt
  have E0 : ((((cfg0.win 1).blk t).view.emb y) 0).val = (y 0).val := by
    show win0_1.index t (0 : Fin 4) * 20 + 1 * (y 0).val = _; rw [f0]; omega
  have E1 : ((((cfg0.win 1).blk t).view.emb y) 1).val = t.val % 3 := by
    show win0_1.index t (1 : Fin 4) * 1 + 1 * (y 1).val = _; rw [f1]; omega
  have E2 : ((((cfg0.win 1).blk t).view.emb y) 2).val = t.val / 3 * 208 + (y 2).val := by
    show win0_1.index t (2 : Fin 4) * 208 + 1 * (y 2).val = _; rw [f2]; omega
  have E3 : ((((cfg0.win 1).blk t).view.emb y) 3).val = (y 3).val := by
    show win0_1.index t (3 : Fin 4) * 128 + 1 * (y 3).val = _; rw [f3]; omega
  refine congr (congrArg pix (funext fun c' => ?_)) (Fin.ext E0.symm)
  refine iblk_apply m c t _ _ ?_ ?_ ?_ ?_
  · show ((((cfg0.win 1).blk t).view.emb y) 2).val / 52 = t.val / 3 * 4 + (y 2).val / 52
    rw [E2]; omega
  · show ((((cfg0.win 1).blk t).view.emb y) 2).val % 52 = (y 2).val % 52
    rw [E2]; omega
  · show 20 * ((((cfg0.win 1).blk t).view.emb y) 1).val + c'.val = o + c'.val
    rw [E1, hot]
  · exact E3

/-- What the outputs' staging buffer holds after point t is the decode of that point's anchor: the three control cases,
    selected by t mod 3. -/
theorem flushed_eq (c : Dev nD) (t : Fin cfg0.N) :
    (dats m 0 c).flushed 1 t = ((cfg0.win 1).blk t).view.read (Elt Ideal) (laid (V m c main_v0)) := by
  show (cfg0.win 1).cut (grid0.coords t) ((dats m 0 c).after 1 t) = _
  rw [after0_1]
  have hN : t.val < 39 := lt_of_lt_of_eq t.isLt (show cfg0.N = 39 from N_0)
  rcases (by omega : t.val % 3 = 0 ∨ t.val % 3 = 1 ∨ t.val % 3 = 2) with h | h | h
  · rw [outsAt0_A m c t h (by omega) (by omega), out_A, pay2_eq]
    exact decoded_block m c t 0 (by omega) _ (by omega)
  · rw [outsAt0_B m c t (by omega) h (by omega), out_B, pay3_eq]
    exact decoded_block m c t 20 (by omega) _ (by omega)
  · rw [outsAt0_C m c t (by omega) (by omega) h, out_C, pay4_eq]
    exact decoded_block m c t 40 (by omega) _ (by omega)

/-- An index of the output array is in point t's block iff each coordinate is in the block's range on its axis. -/
theorem mem_blk (t : Fin cfg0.N) (i : S20x3x2704x128.Idx) :
    i ∈ ((cfg0.win 1).blk t).view.set ↔ ∀ a : Fin 4, win0_1.index t a * S20x1x208x128.size a ≤ (i a).val ∧ (i a).val < win0_1.index t a * S20x1x208x128.size a + S20x1x208x128.size a := by
  show i ∈ ((View.whole main_v1).slice (win0_1.rect t)).set ↔ _
  rw [View.set_slice_whole, Rect.mem_set_unit]
  exact Iff.rfl

/-- THE ARRAY after the call: the 39 blocks tile it (index (ch, a, g, b) lies in the block of point 3·(g / 208) + a),
    so it is `laid` of the transposed input. -/
theorem final (c : Dev nD) : (dats m 0 c).arrAt 1 cfg0.N = laid (V m c main_v0) :=
  (dats m 0 c).arrAt_eq_of_cover 1 (laid (V m c main_v0)) (fun t _ => flushed_eq m c t) fun i => by
    have h0 : (i 0).val < 20 := (i 0).isLt
    have h1 : (i 1).val < 3 := (i 1).isLt
    have h2 : (i 2).val < 2704 := (i 2).isLt
    have h3 : (i 3).val < 128 := (i 3).isLt
    have hN : cfg0.N = 39 := N_0
    refine ⟨⟨(i 2).val / 208 * 3 + (i 1).val, by rw [hN]; omega⟩, flush0_1 _, ?_⟩
    rw [mem_blk]
    obtain ⟨-, -, -, -, f0, f1, f2, f3⟩ := idx_facts ⟨(i 2).val / 208 * 3 + (i 1).val, by rw [hN]; omega⟩
    intro a
    match a with
    | ⟨0, _⟩ => show win0_1.index _ (0 : Fin 4) * 20 ≤ (i 0).val ∧ (i 0).val < win0_1.index _ (0 : Fin 4) * 20 + 20; rw [f0]; omega
    | ⟨1, _⟩ => show win0_1.index _ (1 : Fin 4) * 1 ≤ (i 1).val ∧ (i 1).val < win0_1.index _ (1 : Fin 4) * 1 + 1; rw [f1]; dsimp only; omega
    | ⟨2, _⟩ => show win0_1.index _ (2 : Fin 4) * 208 ≤ (i 2).val ∧ (i 2).val < win0_1.index _ (2 : Fin 4) * 208 + 208; rw [f2]; dsimp only; omega
    | ⟨3, _⟩ => show win0_1.index _ (3 : Fin 4) * 128 ≤ (i 3).val ∧ (i 3).val < win0_1.index _ (3 : Fin 4) * 128 + 128; rw [f3]; omega

/-! ## @main around the call -/

/-- The call's operand is the input with its axes permuted to (h, w, c, b). -/
theorem V_main_v0 (c : Dev nD) :
    (V m c main_v0 : FVec Ideal S52x52x60x128 .f32)
      = transpose S52x52x60x128 [2, 3, 1, 0] (m ((c : Thread nD τ).loc main_arg0)) transposes_S128x60x52x52_S52x52x60x128_2_3_1_0 := by
  show StableHlo.after hostOps0 (fun b => m (c, b)) (Proc.devRef .tc main_v0) = _
  after_results

/-- What @main computes of an input: the decode laid out by the call, its two middle axes merged, its axes reversed. -/
def result (x : FVec Ideal S128x60x52x52 .f32) : FVec Ideal S128x8112x20 .f32 :=
  transpose S128x8112x20 [2, 1, 0]
    (shapeCast S20x8112x128 (laid (transpose S52x52x60x128 [2, 3, 1, 0] x transposes_S128x60x52x52_S52x52x60x128_2_3_1_0))
      shapeCasts_S20x3x2704x128_S20x8112x128) transposes_S20x8112x128_S128x8112x20_2_1_0

/-- The lines after the call leave `result` of the input in @main's result buffer. -/
theorem tail_eq (c : Dev nD) :
    Pipeline.afterTail₀ cfgs (dats m) 0 (V0 m) [hostOps1] c main_v3 = result (m ((c : Thread nD τ).loc main_arg0)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v1)
        = laid (V m c main_v0) from (Pipeline.withArrays_arr spec0 launch0.win.arr_inj c _ _ 1).trans (final m c),
    V_main_v0]
  rfl

/-- THE KERNEL'S RUN, READ: every weakly fair execution ends with the result buffer at `result` of the input and the
    input unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0))
      ∧ r.2.mem ((c : Thread nD τ).loc main_arg0) = m ((c : Thread nD τ).loc main_arg0) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

end AtIdeal

/-! ## The result, index by index -/

/-- `result` is `detect`: at (b, r, ch), r = 2704·a + g, the two layout steps after the call read `laid` at (ch, a, g, b),
    which decodes the pixel xt[g / 52, g % 52, 20·a + ·, b] = x[b, 20·a + ·, g / 52, g % 52]. -/
theorem result_eq (x : FVec Ideal S128x60x52x52 .f32) : result x = detect x := by
  funext j
  obtain ⟨b, r, ch, rfl⟩ : ∃ (b : Fin 128) (r : Fin 8112) (ch : Fin 20), j = ix3 b r ch := ⟨j 0, j 1, j 2, eq_ix3 j⟩
  have hr : r.val < 8112 := r.isLt
  unfold result
  refine (transpose_apply [2, 1, 0] _ transposes_S20x8112x128_S128x8112x20_2_1_0 (ix3 b r ch) (ix3 ch r b)
    (fun a => match a with | ⟨0, _⟩ => rfl | ⟨1, _⟩ => rfl | ⟨2, _⟩ => rfl)).trans ?_
  refine (shapeCast_apply _ shapeCasts_S20x3x2704x128_S20x8112x128 (ix3 ch r b)
    (ix4 ch (⟨r.val / 2704, by omega⟩ : Fin 3) (⟨r.val % 2704, by omega⟩ : Fin 2704) b) (by
      rw [Shape.rowMajor_val_four, Shape.rowMajor_val_three]
      show ((ch.val * 3 + r.val / 2704) * 2704 + r.val % 2704) * 128 + b.val = (ch.val * 8112 + r.val) * 128 + b.val
      omega)).trans ?_
  unfold laid detect
  refine congrArg (fun f => pix f ch) (funext fun c' => ?_)
  have hc' : c'.val < 20 := c'.isLt
  refine (transpose_apply [2, 3, 1, 0] x transposes_S128x60x52x52_S52x52x60x128_2_3_1_0
    (ix4 (⟨r.val % 2704 / 52, by omega⟩ : Fin 52) (⟨r.val % 2704 % 52, by omega⟩ : Fin 52)
      (⟨20 * (r.val / 2704) + c'.val, by omega⟩ : Fin 60) b)
    (ix4 b (⟨20 * (r.val / 2704) + c'.val, by omega⟩ : Fin 60) (⟨r.val % 2704 / 52, by omega⟩ : Fin 52)
      (⟨r.val % 2704 % 52, by omega⟩ : Fin 52))
    (fun a => match a with | ⟨0, _⟩ => rfl | ⟨1, _⟩ => rfl | ⟨2, _⟩ => rfl | ⟨3, _⟩ => rfl)).trans ?_
  refine congrArg x (funext fun a => Fin.ext ?_)
  match a with
  | ⟨0, _⟩ => rfl
  | ⟨1, _⟩ => rfl
  | ⟨2, _⟩ => rfl
  | ⟨3, _⟩ => show r.val % 2704 % 52 = r.val % 52; omega

end Cert.KernelIdeal.Blocks

end
-- ==== Proof.LibNary3.lean ====
/-
  A host operation over a LITERAL family of three references — a concatenate of three operands — read at its own
  result reference: the function applied to the three operands' contents, each AT ITS OWN REFERENCE (a `Fin.cons`
  chain) instead of under a binder `fun k => F (![x, a, b] k)`. Under the binder the reference `![x, a, b] k` is no
  literal, so no result lemma rewrites the operands' contents any further and a closing `rfl` has to evaluate the
  whole fold; with the operands spelt out the rewriting goes on into each of them. The library states this for four
  references; this is the same statement for three.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- The result of an operation over the three literal references `![x, a, b]`, at its result reference: its function
    of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.RefValue.lean ====
/-
  What the reference computes, read at an index, at the ideal values.

  The reference views the input as pred[b, a, h, w, c'] = x[b, 20·a + c', h, w], takes the five leading channels one at a
  time (a slice of width one, reshaped), the logistic of channels 0, 1 and 4 spelt 1 / (1 + exp(−z)), the softmax of
  channels 5 … 19 shifted by their maximum, and lays the results out as out[b, 2704·a + 52·h + w, ch]: the four box
  entries (scaled by 8 after they are put side by side), the objectness, the fifteen class probabilities. At every
  index this is the decode `pix` of the pixel's channels — the same function the kernel's body computes.
-/
import proofs.«102766_g11012296147525_week1_w3_721_13_alg».proof.Proof.RefRead
import proofs.«102766_g11012296147525_week1_w3_721_13_alg».proof.Proof.Pixel
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP Cert.Pixel

variable (x : FVec Ideal S128x60x52x52 .f32) (b : Fin 128) (a : Fin 3) (h w : Fin 52)

/-- The 20 channels of pixel (h, w) of anchor a of batch b. -/
abbrev px : Fin 20 → EReal := fun c' =>
  x (ix4 b (⟨20 * a.val + c'.val, by have := a.isLt; have := c'.isLt; omega⟩ : Fin 60) h w)

/-- The reference's five-axis view of the input. -/
theorem pred_apply (c' : Fin 20) : val_main_v1 (F := Ideal) x (ix5 b a h w c') = px x b a h w c' := by
  have hb : b.val < 128 := b.isLt; have ha : a.val < 3 := a.isLt; have hh : h.val < 52 := h.isLt; have hw : w.val < 52 := w.isLt
  have hc : c'.val < 20 := c'.isLt
  rw [val_main_v1_apply, val_main_v0_apply]
  refine congrArg x (funext fun d => Fin.ext ?_)
  match d with
  | ⟨0, _⟩ => show ((((b.val * 3 + a.val) * 20 + c'.val) * 52 + h.val) * 52 + w.val) / 162240 = b.val; omega
  | ⟨1, _⟩ => show ((((b.val * 3 + a.val) * 20 + c'.val) * 52 + h.val) * 52 + w.val) / 2704 % 60 = 20 * a.val + c'.val; omega
  | ⟨2, _⟩ => show ((((b.val * 3 + a.val) * 20 + c'.val) * 52 + h.val) * 52 + w.val) / 52 % 52 = h.val; omega
  | ⟨3, _⟩ => show ((((b.val * 3 + a.val) * 20 + c'.val) * 52 + h.val) * 52 + w.val) % 52 = w.val; omega

/-! ## The five leading channels, one at a time -/

theorem chan0 : val_main_v3 (F := Ideal) x (ix4 b a h w) = px x b a h w (0 : Fin 20) := by
  have hb : b.val < 128 := b.isLt; have ha : a.val < 3 := a.isLt; have hh : h.val < 52 := h.isLt; have hw : w.val < 52 := w.isLt
  rw [val_main_v3_apply, val_main_v2_apply]
  refine (congrArg (val_main_v1 (F := Ideal) x) (?_ : idx_main_v2 (idx_main_v3 (ix4 b a h w)) = ix5 b a h w (0 : Fin 20))).trans (pred_apply x b a h w _)
  funext d
  apply Fin.ext
  match d with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => rfl

theorem chan1 : val_main_v11 (F := Ideal) x (ix4 b a h w) = px x b a h w (1 : Fin 20) := by
  have hb : b.val < 128 := b.isLt; have ha : a.val < 3 := a.isLt; have hh : h.val < 52 := h.isLt; have hw : w.val < 52 := w.isLt
  rw [val_main_v11_apply, val_main_v10_apply]
  refine (congrArg (val_main_v1 (F := Ideal) x) (?_ : idx_main_v10 (idx_main_v11 (ix4 b a h w)) = ix5 b a h w (1 : Fin 20))).trans (pred_apply x b a h w _)
  funext d
  apply Fin.ext
  match d with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => rfl

theorem chan2 : val_main_v19 (F := Ideal) x (ix4 b a h w) = px x b a h w (2 : Fin 20) := by
  have hb : b.val < 128 := b.isLt; have ha : a.val < 3 := a.isLt; have hh : h.val < 52 := h.isLt; have hw : w.val < 52 := w.isLt
  rw [val_main_v19_apply, val_main_v18_apply]
  refine (congrArg (val_main_v1 (F := Ideal) x) (?_ : idx_main_v18 (idx_main_v19 (ix4 b a h w)) = ix5 b a h w (2 : Fin 20))).trans (pred_apply x b a h w _)
  funext d
  apply Fin.ext
  match d with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => rfl

theorem chan3 : val_main_v21 (F := Ideal) x (ix4 b a h w) = px x b a h w (3 : Fin 20) := by
  have hb : b.val < 128 := b.isLt; have ha : a.val < 3 := a.isLt; have hh : h.val < 52 := h.isLt; have hw : w.val < 52 := w.isLt
  rw [val_main_v21_apply, val_main_v20_apply]
  refine (congrArg (val_main_v1 (F := Ideal) x) (?_ : idx_main_v20 (idx_main_v21 (ix4 b a h w)) = ix5 b a h w (3 : Fin 20))).trans (pred_apply x b a h w _)
  funext d
  apply Fin.ext
  match d with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => rfl

theorem chan4 : val_main_v23 (F := Ideal) x (ix4 b a h w) = px x b a h w (4 : Fin 20) := by
  have hb : b.val < 128 := b.isLt; have ha : a.val < 3 := a.isLt; have hh : h.val < 52 := h.isLt; have hw : w.val < 52 := w.isLt
  rw [val_main_v23_apply, val_main_v22_apply]
  refine (congrArg (val_main_v1 (F := Ideal) x) (?_ : idx_main_v22 (idx_main_v23 (ix4 b a h w)) = ix5 b a h w (4 : Fin 20))).trans (pred_apply x b a h w _)
  funext d
  apply Fin.ext
  match d with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => rfl

/-! ## The logistic of channels 0, 1 and 4: 1 / (1 + exp(−z)) is the logistic on the extended reals -/

theorem sig0 : val_main_v9 (F := Ideal) x (ix4 b a h w) = Ideal.logistic (px x b a h w (0 : Fin 20)) := by
  rw [val_main_v9_apply, val_main_v8_apply, val_main_cst_0_apply, val_main_v7_apply, val_main_v6_apply, val_main_cst_apply,
    val_main_v5_apply, val_main_v4_apply, chan0]
  simp only [Ideal.hostDivf_def, Ideal.addf_def, Ideal.hostUnary_exp_def, Ideal.hostNegf_def, Ideal.negf_def, Ideal.ofBits_def, Ideal.ofBits_one_f32]
  rfl

theorem sig1 : val_main_v17 (F := Ideal) x (ix4 b a h w) = Ideal.logistic (px x b a h w (1 : Fin 20)) := by
  rw [val_main_v17_apply, val_main_v16_apply, val_main_cst_2_apply, val_main_v15_apply, val_main_v14_apply, val_main_cst_1_apply,
    val_main_v13_apply, val_main_v12_apply, chan1]
  simp only [Ideal.hostDivf_def, Ideal.addf_def, Ideal.hostUnary_exp_def, Ideal.hostNegf_def, Ideal.negf_def, Ideal.ofBits_def, Ideal.ofBits_one_f32]
  rfl

theorem sig4 : val_main_v29 (F := Ideal) x (ix4 b a h w) = Ideal.logistic (px x b a h w (4 : Fin 20)) := by
  rw [val_main_v29_apply, val_main_v28_apply, val_main_cst_4_apply, val_main_v27_apply, val_main_v26_apply, val_main_cst_3_apply,
    val_main_v25_apply, val_main_v24_apply, chan4]
  simp only [Ideal.hostDivf_def, Ideal.addf_def, Ideal.hostUnary_exp_def, Ideal.hostNegf_def, Ideal.negf_def, Ideal.ofBits_def, Ideal.ofBits_one_f32]
  rfl

/-! ## The four box entries, each with a unit axis put behind -/

theorem box0 : val_main_v42 (F := Ideal) x (ix5 b a h w (0 : Fin 1)) = Ideal.logistic (px x b a h w (0 : Fin 20)) := by
  rw [val_main_v42_apply]
  exact (congrArg _ (show idx_main_v42 (ix5 b a h w (0 : Fin 1)) = ix4 b a h w from
    funext fun d => Fin.ext (match d with | ⟨0, _⟩ => rfl | ⟨1, _⟩ => rfl | ⟨2, _⟩ => rfl | ⟨3, _⟩ => rfl))).trans (sig0 x b a h w)

theorem box1 : val_main_v43 (F := Ideal) x (ix5 b a h w (0 : Fin 1)) = Ideal.logistic (px x b a h w (1 : Fin 20)) := by
  rw [val_main_v43_apply]
  exact (congrArg _ (show idx_main_v43 (ix5 b a h w (0 : Fin 1)) = ix4 b a h w from
    funext fun d => Fin.ext (match d with | ⟨0, _⟩ => rfl | ⟨1, _⟩ => rfl | ⟨2, _⟩ => rfl | ⟨3, _⟩ => rfl))).trans (sig1 x b a h w)

theorem box2 : val_main_v44 (F := Ideal) x (ix5 b a h w (0 : Fin 1)) = px x b a h w (2 : Fin 20) := by
  rw [val_main_v44_apply]
  exact (congrArg _ (show idx_main_v44 (ix5 b a h w (0 : Fin 1)) = ix4 b a h w from
    funext fun d => Fin.ext (match d with | ⟨0, _⟩ => rfl | ⟨1, _⟩ => rfl | ⟨2, _⟩ => rfl | ⟨3, _⟩ => rfl))).trans (chan2 x b a h w)

theorem box3 : val_main_v45 (F := Ideal) x (ix5 b a h w (0 : Fin 1)) = px x b a h w (3 : Fin 20) := by
  rw [val_main_v45_apply]
  exact (congrArg _ (show idx_main_v45 (ix5 b a h w (0 : Fin 1)) = ix4 b a h w from
    funext fun d => Fin.ext (match d with | ⟨0, _⟩ => rfl | ⟨1, _⟩ => rfl | ⟨2, _⟩ => rfl | ⟨3, _⟩ => rfl))).trans (chan3 x b a h w)

/-! ## The class softmax: the maximum, the shifted exponentials, their sum, the quotient -/

theorem logit_apply (k : Fin 15) : val_main_v30 (F := Ideal) x (ix5 b a h w k) = px x b a h w (cls k) := by
  rw [val_main_v30_apply]
  exact (congrArg _ (show idx_main_v30 (ix5 b a h w k) = ix5 b a h w (cls k) from funext fun d => Fin.ext (match d with | ⟨0, _⟩ => rfl | ⟨1, _⟩ => rfl | ⟨2, _⟩ => rfl | ⟨3, _⟩ => rfl | ⟨4, _⟩ => rfl))).trans
    (pred_apply x b a h w _)

/-- The reduced axis is the last one. -/
theorem hred : S128x3x52x52x15.Reduces [4] S128x3x52x52 := by decide

theorem lift_eq (k : Fin 15) : hred.lift (ix4 b a h w) k = ix5 b a h w k :=
  funext fun d => match d with
    | ⟨0, _⟩ => Fin.ext rfl | ⟨1, _⟩ => Fin.ext rfl | ⟨2, _⟩ => Fin.ext rfl | ⟨3, _⟩ => Fin.ext rfl | ⟨4, _⟩ => Fin.ext rfl

/-- The reference's maximum over the classes is the fold of `max` from −∞ over the pixel's class channels. -/
theorem peak_apply : val_main_v31 (F := Ideal) x (ix4 b a h w) = top (px x b a h w) := by
  unfold val_main_v31
  refine (Host.reduce_eq_fold_single (FloatOps.maximumf (F := Ideal) (φ := .f32)) (val_main_v30 (F := Ideal) x) (val_main_cst_5 (F := Ideal))
    reducesTo_S128x3x52x52x15_S128x3x52x52_d4 hred h_S_ (ix4 b a h w)).trans ?_
  unfold top
  exact congrArg (fun f => (Finset.univ : Finset (Fin 15)).fold max low f)
    (funext fun k => (congrArg (val_main_v30 (F := Ideal) x) (lift_eq b a h w k)).trans (logit_apply x b a h w k))

/-- jax takes the maximum with −∞ once more; it changes nothing. -/
theorem shift_apply (k : Fin 15) : val_main_v35 (F := Ideal) x (ix5 b a h w k) = top (px x b a h w) := by
  rw [val_main_v35_apply, val_main_v34_apply]
  refine (congrArg (val_main_v33 (F := Ideal) x) (show idx_main_v34 (idx_main_v35 (ix5 b a h w k)) = ix4 b a h w from funext fun d => Fin.ext (match d with | ⟨0, _⟩ => rfl | ⟨1, _⟩ => rfl | ⟨2, _⟩ => rfl | ⟨3, _⟩ => rfl))).trans ?_
  rw [val_main_v33_apply, val_main_v32_apply, val_main_cst_6_apply, peak_apply]
  exact max_low_top _

theorem expo_apply (k : Fin 15) :
    val_main_v37 (F := Ideal) x (ix5 b a h w k) = Ideal.exp (px x b a h w (cls k) - top (px x b a h w)) := by
  rw [val_main_v37_apply, val_main_v36_apply, logit_apply, shift_apply]
  rfl

theorem mass_apply : val_main_v38 (F := Ideal) x (ix4 b a h w) = mass (px x b a h w) := by
  rw [val_main_v38_apply]
  have e : ∀ k : Fin 15, val_main_v37 (F := Ideal) x (idx_main_v38 (ix4 b a h w) k)
      = Ideal.exp (px x b a h w (cls k) - top (px x b a h w)) := fun k =>
    (congrArg (val_main_v37 (F := Ideal) x) (show idx_main_v38 (ix4 b a h w) k = ix5 b a h w k from funext fun d => Fin.ext (match d with | ⟨0, _⟩ => rfl | ⟨1, _⟩ => rfl | ⟨2, _⟩ => rfl | ⟨3, _⟩ => rfl | ⟨4, _⟩ => rfl))).trans
      (expo_apply x b a h w k)
  simp only [e]
  unfold mass
  show Ideal.ofBits .f32 0x00000000#32 + _ = _
  rw [Ideal.ofBits_zero_f32, zero_add]

theorem den_apply (k : Fin 15) : val_main_v40 (F := Ideal) x (ix5 b a h w k) = mass (px x b a h w) := by
  rw [val_main_v40_apply, val_main_v39_apply]
  exact (congrArg (val_main_v38 (F := Ideal) x) (show idx_main_v39 (idx_main_v40 (ix5 b a h w k)) = ix4 b a h w from funext fun d => Fin.ext (match d with | ⟨0, _⟩ => rfl | ⟨1, _⟩ => rfl | ⟨2, _⟩ => rfl | ⟨3, _⟩ => rfl))).trans
    (mass_apply x b a h w)

theorem prob_apply (k : Fin 15) : val_main_v41 (F := Ideal) x (ix5 b a h w k)
    = Ideal.div (Ideal.exp (px x b a h w (cls k) - top (px x b a h w))) (mass (px x b a h w)) := by
  rw [val_main_v41_apply, expo_apply, den_apply]
  rfl

/-! ## The four box entries side by side -/

theorem quad0 : val_main_v46 (F := Ideal) x (ix5 b a h w (0 : Fin 4)) = Ideal.logistic (px x b a h w (0 : Fin 20)) := by
  unfold val_main_v46
  exact (concatenate_apply_piece (4 : Fin 5) _ _ (ix5 b a h w (0 : Fin 4)) 0 (by show (0 : Nat) < 4; omega) S128x3x52x52x1
    (val_main_v42 (F := Ideal) x) rfl rfl 0 rfl (ix5 b a h w (0 : Fin 1))
    (fun d hd => match d, hd with | ⟨0, _⟩, _ => rfl | ⟨1, _⟩, _ => rfl | ⟨2, _⟩, _ => rfl | ⟨3, _⟩, _ => rfl | ⟨4, _⟩, hd => absurd rfl hd)
    rfl).trans (box0 x b a h w)
theorem quad1 : val_main_v46 (F := Ideal) x (ix5 b a h w (1 : Fin 4)) = Ideal.logistic (px x b a h w (1 : Fin 20)) := by
  unfold val_main_v46
  exact (concatenate_apply_piece (4 : Fin 5) _ _ (ix5 b a h w (1 : Fin 4)) 1 (by show (1 : Nat) < 4; omega) S128x3x52x52x1
    (val_main_v43 (F := Ideal) x) rfl rfl 1 rfl (ix5 b a h w (0 : Fin 1))
    (fun d hd => match d, hd with | ⟨0, _⟩, _ => rfl | ⟨1, _⟩, _ => rfl | ⟨2, _⟩, _ => rfl | ⟨3, _⟩, _ => rfl | ⟨4, _⟩, hd => absurd rfl hd)
    rfl).trans (box1 x b a h w)
theorem quad2 : val_main_v46 (F := Ideal) x (ix5 b a h w (2 : Fin 4)) = px x b a h w (2 : Fin 20) := by
  unfold val_main_v46
  exact (concatenate_apply_piece (4 : Fin 5) _ _ (ix5 b a h w (2 : Fin 4)) 2 (by show (2 : Nat) < 4; omega) S128x3x52x52x1
    (val_main_v44 (F := Ideal) x) rfl rfl 2 rfl (ix5 b a h w (0 : Fin 1))
    (fun d hd => match d, hd with | ⟨0, _⟩, _ => rfl | ⟨1, _⟩, _ => rfl | ⟨2, _⟩, _ => rfl | ⟨3, _⟩, _ => rfl | ⟨4, _⟩, hd => absurd rfl hd)
    rfl).trans (box2 x b a h w)
theorem quad3 : val_main_v46 (F := Ideal) x (ix5 b a h w (3 : Fin 4)) = px x b a h w (3 : Fin 20) := by
  unfold val_main_v46
  exact (concatenate_apply_piece (4 : Fin 5) _ _ (ix5 b a h w (3 : Fin 4)) 3 (by show (3 : Nat) < 4; omega) S128x3x52x52x1
    (val_main_v45 (F := Ideal) x) rfl rfl 3 rfl (ix5 b a h w (0 : Fin 1))
    (fun d hd => match d, hd with | ⟨0, _⟩, _ => rfl | ⟨1, _⟩, _ => rfl | ⟨2, _⟩, _ => rfl | ⟨3, _⟩, _ => rfl | ⟨4, _⟩, hd => absurd rfl hd)
    rfl).trans (box3 x b a h w)

/-! ## The result row of a pixel -/

/-- Row `2704·a + 52·h + w` of the result holds pixel (h, w) of anchor a. -/
abbrev rowOf : Fin 8112 := ⟨2704 * a.val + 52 * h.val + w.val, by have := a.isLt; have := h.isLt; have := w.isLt; omega⟩

/-- The scaled box entries at row (a, h, w): entry q of the four, times 8. -/
theorem scaled_apply (q : Fin 4) : val_main_v49 (F := Ideal) x (ix3 b (rowOf a h w) q)
    = val_main_v46 (F := Ideal) x (ix5 b a h w q) * eight := by
  have hb : b.val < 128 := b.isLt; have ha : a.val < 3 := a.isLt; have hh : h.val < 52 := h.isLt; have hw : w.val < 52 := w.isLt
  have hq : q.val < 4 := q.isLt
  rw [val_main_v49_apply, val_main_v48_apply, val_main_cst_8_apply, val_main_v47_apply]
  rw [show idx_main_v47 (ix3 b (rowOf a h w) q) = ix5 b a h w q from funext fun d => Fin.ext (match d with
    | ⟨0, _⟩ => by show ((b.val * 8112 + (2704 * a.val + 52 * h.val + w.val)) * 4 + q.val) / 32448 = b.val; omega
    | ⟨1, _⟩ => by show ((b.val * 8112 + (2704 * a.val + 52 * h.val + w.val)) * 4 + q.val) / 10816 % 3 = a.val; omega
    | ⟨2, _⟩ => by show ((b.val * 8112 + (2704 * a.val + 52 * h.val + w.val)) * 4 + q.val) / 208 % 52 = h.val; omega
    | ⟨3, _⟩ => by show ((b.val * 8112 + (2704 * a.val + 52 * h.val + w.val)) * 4 + q.val) / 4 % 52 = w.val; omega
    | ⟨4, _⟩ => by show ((b.val * 8112 + (2704 * a.val + 52 * h.val + w.val)) * 4 + q.val) % 4 = q.val; omega)]
  rfl

theorem conf_apply : val_main_v50 (F := Ideal) x (ix3 b (rowOf a h w) (0 : Fin 1)) = Ideal.logistic (px x b a h w (4 : Fin 20)) := by
  have hb : b.val < 128 := b.isLt; have ha : a.val < 3 := a.isLt; have hh : h.val < 52 := h.isLt; have hw : w.val < 52 := w.isLt
  rw [val_main_v50_apply]
  exact (congrArg (val_main_v29 (F := Ideal) x) (show idx_main_v50 (ix3 b (rowOf a h w) (0 : Fin 1)) = ix4 b a h w from
    funext fun d => Fin.ext (match d with
    | ⟨0, _⟩ => by show ((b.val * 8112 + (2704 * a.val + 52 * h.val + w.val)) * 1 + 0) / 8112 = b.val; omega
    | ⟨1, _⟩ => by show ((b.val * 8112 + (2704 * a.val + 52 * h.val + w.val)) * 1 + 0) / 2704 % 3 = a.val; omega
    | ⟨2, _⟩ => by show ((b.val * 8112 + (2704 * a.val + 52 * h.val + w.val)) * 1 + 0) / 52 % 52 = h.val; omega
    | ⟨3, _⟩ => by show ((b.val * 8112 + (2704 * a.val + 52 * h.val + w.val)) * 1 + 0) % 52 = w.val; omega))).trans (sig4 x b a h w)

theorem class_apply (k : Fin 15) : val_main_v51 (F := Ideal) x (ix3 b (rowOf a h w) k)
    = Ideal.div (Ideal.exp (px x b a h w (cls k) - top (px x b a h w))) (mass (px x b a h w)) := by
  have hb : b.val < 128 := b.isLt; have ha : a.val < 3 := a.isLt; have hh : h.val < 52 := h.isLt; have hw : w.val < 52 := w.isLt
  have hk : k.val < 15 := k.isLt
  rw [val_main_v51_apply]
  exact (congrArg (val_main_v41 (F := Ideal) x) (show idx_main_v51 (ix3 b (rowOf a h w) k) = ix5 b a h w k from
    funext fun d => Fin.ext (match d with
    | ⟨0, _⟩ => by show ((b.val * 8112 + (2704 * a.val + 52 * h.val + w.val)) * 15 + k.val) / 121680 = b.val; omega
    | ⟨1, _⟩ => by show ((b.val * 8112 + (2704 * a.val + 52 * h.val + w.val)) * 15 + k.val) / 40560 % 3 = a.val; omega
    | ⟨2, _⟩ => by show ((b.val * 8112 + (2704 * a.val + 52 * h.val + w.val)) * 15 + k.val) / 780 % 52 = h.val; omega
    | ⟨3, _⟩ => by show ((b.val * 8112 + (2704 * a.val + 52 * h.val + w.val)) * 15 + k.val) / 15 % 52 = w.val; omega
    | ⟨4, _⟩ => by show ((b.val * 8112 + (2704 * a.val + 52 * h.val + w.val)) * 15 + k.val) % 15 = k.val; omega))).trans (prob_apply x b a h w k)

/-! ## The reference's result is `detect` of the input -/

/-- Row (a, h, w) of the reference's result: the three groups laid side by side along the last axis are the decode of
    the pixel's channels. -/
theorem row_apply (ch : Fin 20) : val_main_v52 (F := Ideal) x (ix3 b (rowOf a h w) ch) = pix (px x b a h w) ch := by
  unfold val_main_v52
  have hch : ch.val < 20 := ch.isLt
  by_cases h4 : ch.val < 4
  · refine (concatenate_apply_piece (2 : Fin 3) _ _ (ix3 b (rowOf a h w) ch) 0 (by show (0 : Nat) < 3; omega) S128x8112x4
      (val_main_v49 (F := Ideal) x) rfl rfl 0 rfl (ix3 b (rowOf a h w) (⟨ch.val, h4⟩ : Fin 4))
      (fun d hd => match d, hd with | ⟨0, _⟩, _ => rfl | ⟨1, _⟩, _ => rfl | ⟨2, _⟩, hd => absurd rfl hd)
      (Nat.zero_add _)).trans ?_
    rw [scaled_apply]
    rcases (by omega : ch.val = 0 ∨ ch.val = 1 ∨ ch.val = 2 ∨ ch.val = 3) with e | e | e | e
    · obtain rfl : ch = (0 : Fin 20) := Fin.ext e
      rw [pix_xy _ _ (by decide)]
      exact congrArg (· * eight) (quad0 x b a h w)
    · obtain rfl : ch = (1 : Fin 20) := Fin.ext e
      rw [pix_xy _ _ (by decide)]
      exact congrArg (· * eight) (quad1 x b a h w)
    · obtain rfl : ch = (2 : Fin 20) := Fin.ext e
      rw [pix_wh _ _ (by decide) (by decide)]
      exact congrArg (· * eight) (quad2 x b a h w)
    · obtain rfl : ch = (3 : Fin 20) := Fin.ext e
      rw [pix_wh _ _ (by decide) (by decide)]
      exact congrArg (· * eight) (quad3 x b a h w)
  · by_cases h5 : ch.val < 5
    · obtain rfl : ch = (4 : Fin 20) := Fin.ext (by show ch.val = 4; omega)
      rw [pix_conf _ _ rfl]
      exact (concatenate_apply_piece (2 : Fin 3) _ _ (ix3 b (rowOf a h w) (4 : Fin 20)) 1 (by show (1 : Nat) < 3; omega) S128x8112x1
        (val_main_v50 (F := Ideal) x) rfl rfl 4 rfl (ix3 b (rowOf a h w) (0 : Fin 1))
        (fun d hd => match d, hd with | ⟨0, _⟩, _ => rfl | ⟨1, _⟩, _ => rfl | ⟨2, _⟩, hd => absurd rfl hd)
        rfl).trans (conf_apply x b a h w)
    · have hk : ch.val - 5 < 15 := by omega
      have hcls : cls ⟨ch.val - 5, hk⟩ = ch := Fin.ext (by show 5 + (ch.val - 5) = ch.val; omega)
      rw [pix_cls _ _ (by omega)]
      refine (concatenate_apply_piece (2 : Fin 3) _ _ (ix3 b (rowOf a h w) ch) 2 (by show (2 : Nat) < 3; omega) S128x8112x15
        (val_main_v51 (F := Ideal) x) rfl rfl 5 rfl (ix3 b (rowOf a h w) (⟨ch.val - 5, hk⟩ : Fin 15))
        (fun d hd => match d, hd with | ⟨0, _⟩, _ => rfl | ⟨1, _⟩, _ => rfl | ⟨2, _⟩, hd => absurd rfl hd)
        (by show 5 + (ch.val - 5) = ch.val; omega)).trans ?_
      rw [class_apply, hcls]

/-- The specification at the same row: the row's quotient and remainders give back (a, h, w). -/
theorem detect_apply (ch : Fin 20) : detect x (ix3 b (rowOf a h w) ch) = pix (px x b a h w) ch := by
  have hb : b.val < 128 := b.isLt; have ha : a.val < 3 := a.isLt; have hh : h.val < 52 := h.isLt; have hw : w.val < 52 := w.isLt
  unfold detect
  refine congrArg (fun f => pix f ch) (funext fun c' => congrArg x (funext fun d => Fin.ext ?_))
  match d with
  | ⟨0, _⟩ => rfl
  | ⟨1, _⟩ => show 20 * ((2704 * a.val + 52 * h.val + w.val) / 2704) + c'.val = 20 * a.val + c'.val; omega
  | ⟨2, _⟩ => show (2704 * a.val + 52 * h.val + w.val) % 2704 / 52 = h.val; omega
  | ⟨3, _⟩ => show (2704 * a.val + 52 * h.val + w.val) % 52 = w.val; omega

end Cert.ReferenceIdeal.RefValue

namespace Cert.ReferenceIdeal.RefValue

open Idealize.ShloMosaic Idealize.ShloMosaic.ValueIdx Cert.ReferenceIdeal Cert.ReferenceIdeal.Gen Cert.ReferenceIdeal.ReadP Cert.Pixel

/-- THE REFERENCE'S VALUE: what its last operation writes is `detect` of the input. -/
theorem ref_eq (x : FVec Ideal S128x60x52x52 .f32) : val_main_v52 (F := Ideal) x = detect x := by
  funext j
  obtain ⟨b, r, ch, rfl⟩ : ∃ (b : Fin 128) (r : Fin 8112) (ch : Fin 20), j = ix3 b r ch := ⟨j 0, j 1, j 2, eq_ix3 j⟩
  have hr : r.val < 8112 := r.isLt
  have e : r = rowOf (⟨r.val / 2704, by omega⟩ : Fin 3) (⟨r.val % 2704 / 52, by omega⟩ : Fin 52) (⟨r.val % 52, by omega⟩ : Fin 52) :=
    Fin.ext (by show r.val = 2704 * (r.val / 2704) + 52 * (r.val % 2704 / 52) + r.val % 52; omega)
  rw [e]
  exact (row_apply x b _ _ _ ch).trans (detect_apply x b _ _ _ ch).symm

end Cert.ReferenceIdeal.RefValue

end
-- ==== Proof.lean ====
/-
  The kernel and the reference compute the same detections, at the ideal values.

  The input x[b, c, h, w] over (128, 60, 52, 52) holds, for each of 3 anchors, 20 channels per image position. Both programs
  decode every pixel (b, a, h, w) by the same function `pix` of its 20 channels (Proof/Pixel.lean: the logistic of the
  centre and objectness channels, the stride 8 on the four box channels, the softmax of the fifteen class channels
  shifted by their maximum) and write the result at out[b, 2704·a + 52·h + w, ·]; `detect` is that array as one
  function of x.

  * The kernel (Proof/Payload.lean, Proof/Blocks.lean): its pallas_call works on the input with axes permuted to
    (h, w, c, b); grid point (hb, a) loads four image rows, cuts anchor a's channels out, moves the channel axis to the
    front and decodes, and writes block (·, a, 208·hb …, ·) of an array laid out (ch, a, 52·h + w, b). One store per
    point, no value carried from point to point; the 39 blocks tile the array. Two layout steps after the call give
    out. So the program's result is `detect x` (`Blocks.result_eq`).
  * The reference (Proof/RefValue.lean): the channels are read one at a time out of the five-axis view
    x[b, a, c', h, w]; its 1 / (1 + exp(−z)) is the logistic, its max-shifted softmax the same quotient, and its
    concatenations put the entries where `detect` has them (`RefValue.ref_eq`).

  No law of arithmetic is needed between the two sides: index by index they are the same expression in the same
  channel values, so the finiteness of the input is never used. The ideal pass rewrote nothing, so `preserves` is
  trivial; the frames are the programs' runs with the results dropped.
-/
import proofs.«102766_g11012296147525_week1_w3_721_13_alg».proof.Defs
import proofs.«102766_g11012296147525_week1_w3_721_13_alg».proof.Proof.Gen.Kernel
import proofs.«102766_g11012296147525_week1_w3_721_13_alg».proof.Proof.Gen.Kernel.Skeleton
import proofs.«102766_g11012296147525_week1_w3_721_13_alg».proof.Proof.Gen.Kernel.Launch
import proofs.«102766_g11012296147525_week1_w3_721_13_alg».proof.Proof.Gen.Kernel.Points
import proofs.«102766_g11012296147525_week1_w3_721_13_alg».proof.Proof.Gen.Kernel.Frame
import proofs.«102766_g11012296147525_week1_w3_721_13_alg».proof.Proof.Gen.KernelIdeal
import proofs.«102766_g11012296147525_week1_w3_721_13_alg».proof.Proof.Gen.KernelIdeal.Skeleton
import proofs.«102766_g11012296147525_week1_w3_721_13_alg».proof.Proof.Gen.KernelIdeal.Launch
import proofs.«102766_g11012296147525_week1_w3_721_13_alg».proof.Proof.Gen.KernelIdeal.Points
import proofs.«102766_g11012296147525_week1_w3_721_13_alg».proof.Proof.Gen.KernelIdeal.Frame
import proofs.«102766_g11012296147525_week1_w3_721_13_alg».proof.Proof.Gen.ReferenceIdeal
import proofs.«102766_g11012296147525_week1_w3_721_13_alg».proof.Proof.Gen.Pre_finite_inputs
import proofs.«102766_g11012296147525_week1_w3_721_13_alg».proof.Proof.Blocks
import proofs.«102766_g11012296147525_week1_w3_721_13_alg».proof.Proof.RefValue
import Idealize.ShloMosaic.Adequacy
import Idealize.ShloMosaic.Init

noncomputable section

namespace Cert.Proof

open Idealize.ShloMosaic Idealize.SL.Sem

/-- The word-level kernel runs and leaves its argument as it found it. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the input both programs end with `detect` of it in their result buffers. -/
theorem algebraic : Cert.algebraic_KernelIdeal_ReferenceIdeal := by
  intro m ρ m' ρ' _ hagree
  refine ⟨fun c => Cert.KernelIdeal.Blocks.result (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v52_eq, hagree c, Cert.ReferenceIdeal.RefValue.ref_eq]
  exact (Cert.KernelIdeal.Blocks.result_eq _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
